-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S65536 : Shape := ⟨1, ![65536]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_arg3 : IVec S65536 32) (main_v15 : IVec S_ 1) (main_c_5 : IVec S_ 32) : IVec S_ 1 :=
  let main_v16 : IVec S65536 32 := broadcastInDim S65536 ![] bcast_S_S65536 main_c_5
  let main_v17 : IVec S65536 1 := cmpi .sge main_arg3 main_v16
  let main_c_6 : IVec S_ 32 := constantI S_ 32 2048#32
  let main_v18 : IVec S65536 32 := broadcastInDim S65536 ![] bcast_S_S65536 main_c_6
  let main_v19 : IVec S65536 1 := cmpi .slt main_arg3 main_v18
  let main_v20 : IVec S65536 1 := andi main_v17 main_v19
  let main_c_7 : IVec S_ 1 := constantI S_ 1 1#1
  let main_v21 : IVec S_ 1 := (fun x v => Host.reduce IntOp.andi x v reducesTo_S65536_S_d0 h_S_) main_v20 main_c_7
  let main_v22 : IVec S_ 1 := andi main_v15 main_v21
  main_v22

def fn {F : FTy → Type} [FloatOps F] (main_arg0 : FVec F S2048x2048 .f32) (main_arg1 : FVec F S65536 .f32) (main_arg2 : IVec S65536 32) (main_arg3 : IVec S65536 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 32 := constantI S_ 32 16384#32
  let main_v11 : IVec S65536 32 := broadcastInDim S65536 ![] bcast_S_S65536 main_c_3
  let main_v12 : IVec S65536 1 := cmpi .slt main_arg2 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S2048x2048 : Shape := ⟨2, ![2048, 2048]⟩
abbrev S65536 : Shape := ⟨1, ![65536]⟩
abbrev S_ : Shape := ⟨0, ![]⟩
abbrev S16384x2048 : Shape := ⟨2, ![16384, 2048]⟩
abbrev S65536x1 : Shape := ⟨2, ![65536, 1]⟩
abbrev S65536x2 : Shape := ⟨2, ![65536, 2]⟩
abbrev S2048x18432 : Shape := ⟨2, ![2048, 18432]⟩
abbrev S256x2048 : Shape := ⟨2, ![256, 2048]⟩
abbrev S2048x256 : Shape := ⟨2, ![2048, 256]⟩

abbrev nBuf : Space → Nat
  | .hbm => 26
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S65536, .f32⟩
  | .hbm, ⟨2, _⟩ => ⟨S65536, .i32⟩
  | .hbm, ⟨3, _⟩ => ⟨S65536, .i32⟩
  | .hbm, ⟨4, _⟩ => ⟨S_, .f32⟩
  | .hbm, ⟨5, _⟩ => ⟨S16384x2048, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i1⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S65536, .i32⟩
  | .hbm, ⟨20, _⟩ => ⟨S65536x1, .i32⟩
  | .hbm, ⟨21, _⟩ => ⟨S65536x1, .i32⟩
  | .hbm, ⟨22, _⟩ => ⟨S65536x2, .i32⟩
  | .hbm, ⟨23, _⟩ => ⟨S16384x2048, .f32⟩
  | .hbm, ⟨24, _⟩ => ⟨S2048x2048, .bf16⟩
  | .hbm, ⟨25, _⟩ => ⟨S2048x18432, .f32⟩
  | .local _ .vmem, ⟨0, _⟩ => ⟨S2048x2048, .f32⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S2048x256, .f32⟩
  | .local _ .vmem, ⟨5, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_v6 : Ref sig .tc := ⟨.hbm, 14, rfl⟩
abbrev main_call0_v7 : Ref sig .tc := ⟨.hbm, 15, rfl⟩
abbrev main_call0_c_2 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_v0 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![72], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v6 : BitVec 32 := Scalar.muli arg0 c256_i32
  v6
def k0_off1 (i : grid0.Coords) : Fin 2 → Nat :=
  let c0 : Index := 0#32
  let arg0 : BitVec 32 := BitVec.ofNat 32 (i 0).val
  let c256_i32 : BitVec 32 := 256#32
  let v6 : BitVec 32 := Scalar.muli arg0 c256_i32
  let v7 : BitVec 32 := v6
  let v8 : Index := Scalar.indexCast v7
  ![0, v8.toNat]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384x2048 : S_.BroadcastsInDim S16384x2048 (![] : Fin 0 → Fin S16384x2048.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bitsLt_bf16_f32 : FTy.bits .bf16 < FTy.bits .f32
  h_S2048x256 : 0 < S2048x256.numel
  inb_S2048x256_S2048x256_0_0 : ∀ a, (![0, 0] : Fin 2 → Nat) a + S2048x256.size a ≤ S2048x256.size a
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  scatter_S16384x2048_S65536x2_S65536_n_01_01_1_wf : ScatterDims.WF S16384x2048 S65536x2 S65536 [] [0, 1] [0, 1] 1
  dot_S2048x2048_S256x2048_S2048x256_1_1_0_0_n_n_wf : DotDims.WF S2048x2048 S256x2048 S2048x256 [1] [1] [0] [0] [] []
  hrank0 : 0 < grid0.rank
  k0_mult1_dvd : ∀ i : grid0.Coords, ∀ (k0_h1 : k0_cond1 i = 1#1), 256 ∣ (k0_mult1 i).toNat
  k0_off1_inb : ∀ i : grid0.Coords, ∀ (k0_h1 : k0_cond1 i = 1#1), ∀ a, (k0_off1 i) a + S2048x256.size a ≤ S2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x18432.size a
  hwx0_3 : ∀ i : grid0.Coords, EltTy.bits .f32 = 32 ∨ (Rect.block (s := S2048x18432) S2048x256.size (cc0_transform_3 i) (hinb0_3 i)).WholeWords (EltTy.packing .f32)

variable [Facts₀]

def scatter_S16384x2048_S65536x2_S65536_n_01_01_1 : ScatterDims S16384x2048 S65536x2 S65536 where
  updateWindowDims := []
  insertedWindowDims := [0, 1]
  scatterDimsToOperandDims := [0, 1]
  indexVectorDim := 1
  wf := scatter_S16384x2048_S65536x2_S65536_n_01_01_1_wf
def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_arg0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S2048x2048 : Shape := ⟨2, ![2048, 2048]⟩
abbrev S65536 : Shape := ⟨1, ![65536]⟩
abbrev S_ : Shape := ⟨0, ![]⟩
abbrev S65536x1 : Shape := ⟨2, ![65536, 1]⟩
abbrev S2048x65536 : Shape := ⟨2, ![2048, 65536]⟩
abbrev S1x65536 : Shape := ⟨2, ![1, 65536]⟩
abbrev S65536x2048 : Shape := ⟨2, ![65536, 2048]⟩
abbrev S16384x2048 : Shape := ⟨2, ![16384, 2048]⟩
abbrev S2048x16384 : Shape := ⟨2, ![2048, 16384]⟩
abbrev S2048x18432 : Shape := ⟨2, ![2048, 18432]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S65536, .f32⟩
  | .hbm, ⟨2, _⟩ => ⟨S65536, .i32⟩
  | .hbm, ⟨3, _⟩ => ⟨S65536, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S2048x65536, .f32⟩
  | .hbm, ⟨13, _⟩ => ⟨S1x65536, .f32⟩
  | .hbm, ⟨14, _⟩ => ⟨S2048x65536, .f32⟩
  | .hbm, ⟨15, _⟩ => ⟨S2048x65536, .f32⟩
  | .hbm, ⟨16, _⟩ => ⟨S65536x2048, .f32⟩
  | .hbm, ⟨17, _⟩ => ⟨S_, .f32⟩
  | .hbm, ⟨18, _⟩ => ⟨S16384x2048, .f32⟩
  | .hbm, ⟨19, _⟩ => ⟨S65536x1, .i32⟩
  | .hbm, ⟨20, _⟩ => ⟨S16384x2048, .f32⟩
  | .hbm, ⟨21, _⟩ => ⟨S2048x16384, .f32⟩
  | .hbm, ⟨22, _⟩ => ⟨S2048x18432, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536_S1x65536_1 : S65536.BroadcastsInDim S1x65536 (![1] : Fin 1 → Fin S1x65536.rank)
  bcast_S1x65536_S2048x65536_0_1 : S1x65536.BroadcastsInDim S2048x65536 (![0, 1] : Fin 2 → Fin S2048x65536.rank)
  transposes_S2048x65536_S65536x2048_1_0 : S2048x65536.Transposes [1, 0] S65536x2048
  bcast_S_S16384x2048 : S_.BroadcastsInDim S16384x2048 (![] : Fin 0 → Fin S16384x2048.rank)
  transposes_S16384x2048_S2048x16384_1_0 : S16384x2048.Transposes [1, 0] S2048x16384
  concatenates_S2048x2048_S2048x16384_S2048x18432_d1 : Shape.Concatenates [S2048x2048, S2048x16384] S2048x18432 1
  gather_S2048x2048_S65536x1_S2048x65536_0_1_n_n_1_1_20481_wf : GatherDims.WF S2048x2048 S65536x1 S2048x65536 [0] [1] [] [1] [] 1 ![2048, 1]
  scatter_S16384x2048_S65536x1_S65536x2048_1_0_0_1_wf : ScatterDims.WF S16384x2048 S65536x1 S65536x2048 [1] [0] [0] 1

variable [Facts₀]

def gather_S2048x2048_S65536x1_S2048x65536_0_1_n_n_1_1_20481 : GatherDims S2048x2048 S65536x1 S2048x65536 where
  offsetDims := [0]
  collapsedSliceDims := [1]
  operandBatchingDims := []
  startIndicesBatchingDims := []
  startIndexMap := [1]
  indexVectorDim := 1
  sliceSizes := ![2048, 1]
  wf := gather_S2048x2048_S65536x1_S2048x65536_0_1_n_n_1_1_20481_wf
def scatter_S16384x2048_S65536x1_S65536x2048_1_0_0_1 : ScatterDims S16384x2048 S65536x1 S65536x2048 where
  updateWindowDims := [1]
  insertedWindowDims := [0]
  scatterDimsToOperandDims := [0]
  indexVectorDim := 1
  wf := scatter_S16384x2048_S65536x1_S65536x2048_1_0_0_1_wf

class Facts : Prop extends Facts₀ where

variable [Facts]
-- ==== Proof.PreRead.lean ====
/-
  What the precondition says, entry by entry: every entry of `x` and every weight is a real number (neither infinity),
  every child word reads, as a signed integer, in [0, 16384) and every parent word in [0, 2048).
-/
import proofs.«418488_j75720273428632_2_alg».proof.Pre_finite_inputs
import proofs.«418488_j75720273428632_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreRead

open Idealize.ShloMosaic Cert.Pre_finite_inputs Cert.Pre_finite_inputs.Gen

/-- The rank-0 result shape has one index. -/
instance subsingleton_S_Idx : Subsingleton S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max a (-a) is below +∞ is neither infinity: it is a real. -/
theorem real_of_abs_lt_top (a : EReal) (h : max a (-a) < ⊤) : ∃ r : ℝ, a = (r : EReal) := by
  induction a using EReal.rec with
  | bot => simp at h
  | coe r => exact ⟨r, rfl⟩
  | top => simp at h

/-- The printed element test |a| < +∞ at the exact-real instance, read back. -/
theorem real_of_cmpf {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  apply real_of_abs_lt_top
  have h' : Ideal.cmp .olt (max (x i) (-(x i))) (Ideal.ofBits .f32 0x7F800000#32) = 1#1 := h
  rw [ofBits_inf] at h'
  simpa only [Ideal.cmp, StableHlo.Predicate.ofBool_eq_one_iff, decide_eq_true_eq] using h'

/-- The printed element test (0 ≤ w) ∧ (w < n), signed, against broadcast scalar constants, read back. -/
theorem range_of_cmpi {s : Shape} (hb : S_.BroadcastsInDim s (![] : Fin 0 → Fin s.rank)) (w : IVec s 32) (n : BitVec 32) (i : s.Idx)
    (h : andi (cmpi .sge w (broadcastInDim s ![] hb (constantI S_ 32 0#32)))
        (cmpi .slt w (broadcastInDim s ![] hb (constantI S_ 32 n))) i = 1#1) :
    0 ≤ (w i).toInt ∧ (w i).toInt < n.toInt := by
  have h' : IntOp.andi (IntOp.cmpi .sge (w i) 0#32) (IntOp.cmpi .slt (w i) n) = 1#1 := h
  rw [IntOp.andi_eq_one, IntOp.cmpi_sge, IntOp.cmpi_slt] at h'
  exact ⟨by simpa using h'.1, h'.2⟩

theorem of_pre (x : FVec Ideal S2048x2048 .f32) (v : FVec Ideal S65536 .f32) (ch pa : IVec S65536 32)
    (h : Cert.Pre_finite_inputs.fn (F := Ideal) x v ch pa = fun _ => 1#1) :
    (∀ i, ∃ r : ℝ, x i = (r : EReal)) ∧ (∀ e, ∃ r : ℝ, v e = (r : EReal))
      ∧ (∀ e, 0 ≤ (ch e).toInt ∧ (ch e).toInt < 16384) ∧ (∀ e, 0 ≤ (pa e).toInt ∧ (pa e).toInt < 2048) := by
  have e := congrFun h ValueIdx.ix0
  dsimp only [Cert.Pre_finite_inputs.fn, Cert.Pre_finite_inputs.fn_part1] at e
  -- the conjunction of the four all-reductions, each 1
  have e' := IntOp.andi_eq_one.1 e
  obtain ⟨e123, e4⟩ := e'
  obtain ⟨e12, e3⟩ := IntOp.andi_eq_one.1 e123
  obtain ⟨e1, e2⟩ := IntOp.andi_eq_one.1 e12
  have k16384 : (16384#32 : BitVec 32).toInt = 16384 := by decide
  have k2048 : (2048#32 : BitVec 32).toInt = 2048 := by decide
  refine ⟨fun i => ?_, fun j => ?_, fun j => ?_, fun j => ?_⟩
  · exact real_of_cmpf _ x i (Host.reduce_andi_all _ _ _ _ _ e1 i)
  · exact real_of_cmpf _ v j (Host.reduce_andi_all _ _ _ _ _ e2 j)
  · have := range_of_cmpi _ ch 16384#32 j (Host.reduce_andi_all _ _ _ _ _ e3 j)
    rwa [k16384] at this
  · have := range_of_cmpi _ pa 2048#32 j (Host.reduce_andi_all _ _ _ _ _ e4 j)
    rwa [k2048] at this

end Cert.PreRead

end
-- ==== Proof.Spec.lean ====
/-
  The result both programs compute, as one function of the four argument arrays.

  `x` is a 2048 × 2048 array, and there are 65536 weighted edges: edge `e` has weight `v e`, a child word `ch e` and a
  parent word `pa e`. The result is 2048 × 18432. Its first 2048 columns are `x` itself. Column `2048 + c` of row `b`
  is the sum, over the edges whose child word reads `c`, of `x[b, column of the edge] * v e`, where the column of an
  edge is its parent word read as a signed integer and clamped into `[0, 2047]` (for a parent word already in range the
  clamp does nothing).
-/
import Idealize.ShloMosaic.Lib.ValueIdx
import Idealize.ShloMosaic.PureOps.Ideal.Laws

noncomputable section

open scoped BigOperators

namespace Cert.Spec

open Idealize.ShloMosaic Idealize.ShloMosaic.ValueIdx

/-- The dense input. -/
abbrev SX : Shape := ⟨2, ![2048, 2048]⟩
/-- One entry per edge. -/
abbrev SE : Shape := ⟨1, ![65536]⟩
/-- The result: the input's columns, then one column per child. -/
abbrev SO : Shape := ⟨2, ![2048, 18432]⟩

/-- The column an edge reads: its parent word read signed, clamped into the row. -/
def col (pa : IVec SE 32) (e : SE.Idx) : Fin 2048 := ⟨min (pa e).toInt.toNat 2047, by omega⟩

/-- Row `b` against child `c`: the sum over the edges of child `c` of the row's entry at the edge's column times the
    edge's weight. -/
def edgeSum (x : SX.Idx → EReal) (v : SE.Idx → EReal) (ch pa : IVec SE 32) (b : Fin 2048) (c : ℕ) : EReal :=
  ∑ e ∈ Finset.univ.filter (fun e : SE.Idx => (ch e).toInt = (c : ℤ)), x (ix2 b (col pa e)) * v e

/-- The whole result. -/
def G (x : SX.Idx → EReal) (v : SE.Idx → EReal) (ch pa : IVec SE 32) : SO.Idx → EReal := fun i =>
  if h : (i 1).val < 2048 then x (ix2 (i 0) ⟨(i 1).val, h⟩)
  else edgeSum x v ch pa (i 0) ((i 1).val - 2048)

end Cert.Spec

end
-- ==== Proof.LibScatterIdx.lean ====
/-
  Where an update of a scatter lands. For update index `j` the result index is, on every operand axis, the start read
  off the scatter indices plus the window coordinate, and the update is dropped when that leaves the operand on some
  axis. So the update lands on a given operand index `i` exactly when start plus window equals `i`'s coordinate on
  every axis: no separate range condition is needed, because `i` is itself inside the operand.
-/
import Idealize.ShloMosaic.PureOps.Dims

namespace Cert.Lib.ScatterIdx

open Idealize.ShloMosaic

/-- An update lands on `i` iff on every axis its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    by_cases hin : ∀ a, 0 ≤ d.start j idx a + d.window j a ∧ d.start j idx a + d.window j a < s.size a
    · rw [dif_pos hin] at h
      intro a
      have ha := congrArg Fin.val (congrFun (Option.some.inj h) a)
      have h0 := (hin a).1
      simp only at ha
      omega
    · rw [dif_neg hin] at h
      cases h
  · intro h
    have hin : ∀ a, 0 ≤ d.start j idx a + d.window j a ∧ d.start j idx a + d.window j a < s.size a := by
      intro a
      have := h a
      have := (i a).isLt
      constructor <;> omega
    rw [dif_pos hin]
    congr 1
    funext a
    apply Fin.ext
    have := h a
    simp only
    omega

end Cert.Lib.ScatterIdx
-- ==== Proof.RefValue.lean ====
/-
  The reference's result is the specification `G`.

  Stage by stage: under the sign hypothesis the wrapped parent word is the parent word; the gather reads the input's
  column at the clamped parent word; the product with the broadcast weights, transposed, is the update array; the
  scatter adds update `(e, b')` to `(c, b)` exactly when edge `e`'s child word reads `c` and `b' = b`, so over a zero
  accumulator the stage at `(c, b)` is the sum over the edges of child `c`; the concatenation puts the input in the
  first 2048 columns and the transposed scatter stage after them.
-/
import proofs.«418488_j75720273428632_2_alg».proof.Proof.Gen.ReferenceIdeal.Read
import proofs.«418488_j75720273428632_2_alg».proof.Proof.Spec
import proofs.«418488_j75720273428632_2_alg».proof.Proof.LibScatterIdx
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal Cert.ReferenceIdeal.Gen

/-- Under the sign hypothesis the wrapped parent word is the parent word itself: the signed compare with zero is false,
    so the select keeps its last operand. -/
theorem v4_eq (x3 : IVec S65536 32) (hp : ∀ e, 0 ≤ (x3 e).toInt) (e : S65536.Idx) :
    Read.val_main_v4 (F := Ideal) x3 e = x3 e := by
  rw [Read.val_main_v4_apply, Read.val_main_v1_apply, Read.val_main_v0_apply, Read.val_main_c_apply]
  have h : IntOp.cmpi .slt (x3 e) 0#32 = 0#1 := by
    show BitVec.ofBool ((x3 e).slt 0#32) = 0#1
    have hs : (x3 e).slt 0#32 = false := by
      rw [BitVec.slt]
      have := hp e
      simp only [BitVec.toInt_zero, decide_eq_false_iff_not, not_lt]
      exact this
    rw [hs]; rfl
  rw [h, select_zero]

/-- The gather's dimension numbers. -/
abbrev gd : GatherDims S2048x2048 S65536x1 S2048x65536 := gather_S2048x2048_S65536x1_S2048x65536_0_1_n_n_1_1_20481

/-- The gather stage at row `b`, edge `e`: on the row axis the slice starts at zero and the offset is `b`; on the column
    axis the start is the edge's parent word read signed and clamped into the row, and the slice has one column. -/
theorem v6_at (x0 : FVec Ideal S2048x2048 .f32) (x3 : IVec S65536 32) (hp : ∀ e, 0 ≤ (x3 e).toInt)
    (b : Fin 2048) (e : Fin 65536) :
    Read.val_main_v6 (F := Ideal) x0 x3 (ix2 b e) = x0 (ix2 b (Cert.Spec.col x3 (ix1 e))) := by
  unfold Read.val_main_v6 Host.gather
  congr 1
  funext a
  refine Fin.ext ?_
  match a with
  | ⟨0, _⟩ =>
    show gd.start (ix2 b e) (Read.val_main_v5 (F := Ideal) x3) 0 + gd.batchCoord (ix2 b e) 0 + gd.offCoord (ix2 b e) 0 = b.val
    rw [GatherDims.batchCoord_eq_zero _ _ _ List.not_mem_nil]
    have hs : gd.start (ix2 b e) (Read.val_main_v5 (F := Ideal) x3) 0 = 0 := by
      unfold GatherDims.start
      rw [dif_neg (show (0 : Fin 2) ∉ gd.startIndexMap from by decide)]
    rw [hs]
    unfold GatherDims.offCoord
    rw [dif_pos (show (0 : Fin 2) ∈ gd.sKept from by decide)]
    simp only [Nat.add_zero, Nat.zero_add]
    rfl
  | ⟨1, _⟩ =>
    show gd.start (ix2 b e) (Read.val_main_v5 (F := Ideal) x3) 1 + gd.batchCoord (ix2 b e) 1 + gd.offCoord (ix2 b e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 b e) ⟨List.idxOf (1 : Fin 2) gd.startIndexMap,
        List.idxOf_lt_length_iff.2 (List.mem_singleton.mpr rfl)⟩ = (ix2 e (0 : Fin 1) : S65536x1.Idx) := by
      funext c; refine Fin.ext ?_
      match c with
      | ⟨0, _⟩ => rfl
      | ⟨1, _⟩ => rfl
    rw [hsi, Read.val_main_v5_apply, v4_eq x3 hp]
    have hix : Read.idx_main_v5 (ix2 e (0 : Fin 1) : S65536x1.Idx) = (ix1 e : S65536.Idx) := by
      funext c; match c with | ⟨0, _⟩ => rfl
    rw [hix]
    show min (x3 (ix1 e)).toInt.toNat (2048 - 1) = min (x3 (ix1 e)).toInt.toNat 2047
    rfl

/-- The transposed product at edge `e`, row `b`: the row's entry at the edge's column times the edge's weight. -/
theorem v10_at (x0 : FVec Ideal S2048x2048 .f32) (x1 : FVec Ideal S65536 .f32) (x3 : IVec S65536 32)
    (hp : ∀ e, 0 ≤ (x3 e).toInt) (e : Fin 65536) (b : Fin 2048) :
    Read.val_main_v10 (F := Ideal) x0 x1 x3 (ix2 e b) = x0 (ix2 b (Cert.Spec.col x3 (ix1 e))) * x1 (ix1 e) := by
  rw [Read.val_main_v10_apply]
  have h10 : Read.idx_main_v10 (ix2 e b : S65536x2048.Idx) = (ix2 b e : S2048x65536.Idx) := by
    funext c; match c with | ⟨0, _⟩ => rfl | ⟨1, _⟩ => rfl
  rw [h10, Read.val_main_v9_apply, v6_at x0 x3 hp, Read.val_main_v8_apply, Read.val_main_v7_apply]
  have h7 : Read.idx_main_v7 (Read.idx_main_v8 (ix2 b e : S2048x65536.Idx)) = (ix1 e : S65536.Idx) := by
    funext c; match c with | ⟨0, _⟩ => rfl
  rw [h7]
  rfl

/-- The scatter's dimension numbers. -/
abbrev sd : ScatterDims S16384x2048 S65536x1 S65536x2048 := scatter_S16384x2048_S65536x1_S65536x2048_1_0_0_1

/-- The update at `(e, b')` lands on `(c, b)` exactly when edge `e`'s child word reads `c` and `b' = b`. -/
theorem lands_iff (x2 : IVec S65536 32) (j : S65536x2048.Idx) (c : Fin 16384) (b : Fin 2048) :
    sd.resultIdx? j (Read.val_main_v12 (F := Ideal) x2) = some (ix2 c b : S16384x2048.Idx) ↔
      ((x2 (ix1 (j 0))).toInt = (c.val : ℤ) ∧ j 1 = b) := by
  rw [Cert.Lib.ScatterIdx.resultIdx?_eq_some_iff]
  have h0s : sd.start j (Read.val_main_v12 (F := Ideal) x2) 0 = (x2 (ix1 (j 0))).toInt := by
    unfold ScatterDims.start
    rw [dif_pos (show (0 : Fin 2) ∈ sd.scatterDimsToOperandDims from List.mem_singleton.mpr rfl)]
    have hsi : sd.siIdx j ⟨List.idxOf (0 : Fin 2) sd.scatterDimsToOperandDims,
        List.idxOf_lt_length_iff.2 (List.mem_singleton.mpr rfl)⟩ = (ix2 (j 0) (0 : Fin 1) : S65536x1.Idx) := by
      funext a; refine Fin.ext ?_
      match a with
      | ⟨0, _⟩ => rfl
      | ⟨1, _⟩ => rfl
    rw [hsi, Read.val_main_v12_apply]
    have hix : Read.idx_main_v12 (ix2 (j 0) (0 : Fin 1) : S65536x1.Idx) = (ix1 (j 0) : S65536.Idx) := by
      funext a; match a with | ⟨0, _⟩ => rfl
    rw [hix]
  have h0w : sd.window j 0 = 0 := by
    unfold ScatterDims.window
    rw [dif_neg (show (0 : Fin 2) ∉ sd.sKept from by decide)]
  have h1s : sd.start j (Read.val_main_v12 (F := Ideal) x2) 1 = 0 := by
    unfold ScatterDims.start
    rw [dif_neg (show (1 : Fin 2) ∉ sd.scatterDimsToOperandDims from by decide)]
  have h1w : sd.window j 1 = (j 1).val := by
    unfold ScatterDims.window
    rw [dif_pos (show (1 : Fin 2) ∈ sd.sKept from by decide)]
    rfl
  constructor
  · intro h
    have a0 := h 0
    have a1 := h 1
    rw [h0s, h0w] at a0
    rw [h1s, h1w] at a1
    have a0' : (x2 (ix1 (j 0))).toInt + ((0 : ℕ) : ℤ) = (c.val : ℤ) := a0
    have a1' : (0 : ℤ) + ((j 1).val : ℤ) = (b.val : ℤ) := a1
    refine ⟨by omega, Fin.ext (by omega)⟩
  · rintro ⟨hc, hb⟩ a
    match a with
    | ⟨0, _⟩ =>
      show sd.start j (Read.val_main_v12 (F := Ideal) x2) 0 + ((sd.window j 0 : ℕ) : ℤ) = (c.val : ℤ)
      rw [h0s, h0w]; omega
    | ⟨1, _⟩ =>
      show sd.start j (Read.val_main_v12 (F := Ideal) x2) 1 + ((sd.window j 1 : ℕ) : ℤ) = (b.val : ℤ)
      rw [h1s, h1w, hb]; omega

/-- The scatter stage at child `c`, row `b`: the accumulator starts at zero and receives exactly the updates of the
    edges whose child word reads `c`, each the row's entry at the edge's column times the edge's weight. -/
theorem v13_at (x0 : FVec Ideal S2048x2048 .f32) (x1 : FVec Ideal S65536 .f32) (x2 x3 : IVec S65536 32)
    (hp : ∀ e, 0 ≤ (x3 e).toInt) (c : Fin 16384) (b : Fin 2048) :
    Read.val_main_v13 (F := Ideal) x0 x1 x2 x3 (ix2 c b) = Cert.Spec.edgeSum x0 x1 x2 x3 b c.val := by
  unfold Read.val_main_v13 Host.scatterAdd
  rw [Ideal.hostScatterAdd_def]
  unfold Ideal.hostScatterAdd
  rw [Read.val_main_v11_apply, Read.val_main_cst_apply]
  show Ideal.ofBits .f32 0x00000000#32 + _ = _
  rw [Ideal.ofBits_zero_f32, zero_add]
  unfold Cert.Spec.edgeSum
  refine Finset.sum_nbij' (fun j => (ix1 (j 0) : S65536.Idx)) (fun e' => (ix2 (e' 0) b : S65536x2048.Idx)) ?_ ?_ ?_ ?_ ?_
  · intro j hj
    rw [Finset.mem_filter] at hj ⊢
    exact ⟨Finset.mem_univ _, ((lands_iff x2 j c b).mp hj.2).1⟩
  · intro e' he'
    rw [Finset.mem_filter] at he' ⊢
    refine ⟨Finset.mem_univ _, (lands_iff x2 _ c b).mpr ⟨?_, rfl⟩⟩
    have hE : (ix1 ((ix2 (e' 0) b : S65536x2048.Idx) 0) : S65536.Idx) = e' := (eq_ix1 e').symm
    rw [hE]; exact he'.2
  · intro j hj
    rw [Finset.mem_filter] at hj
    have hb := ((lands_iff x2 j c b).mp hj.2).2
    show (ix2 (j 0) b : S65536x2048.Idx) = j
    rw [← hb]; exact (eq_ix2 j).symm
  · intro e' _
    exact (eq_ix1 e').symm
  · intro j hj
    rw [Finset.mem_filter] at hj
    have hb := ((lands_iff x2 j c b).mp hj.2).2
    have hj' : (ix2 (j 0) b : S65536x2048.Idx) = j := by rw [← hb]; exact (eq_ix2 j).symm
    have hv := v10_at x0 x1 x3 hp (j 0) b
    rw [hj'] at hv
    exact hv

/-- The reference's result is the specification: the first 2048 columns are the first operand of the concatenation, the
    input itself; column `2048 + c` is the transposed scatter stage at `(c, b)`, the edge sum. -/
theorem ref_eq_G (x0 : FVec Ideal S2048x2048 .f32) (x1 : FVec Ideal S65536 .f32) (x2 x3 : IVec S65536 32)
    (hp : ∀ e, 0 ≤ (x3 e).toInt) :
    Cert.ReferenceIdeal.Read.val_main_v15 (F := Ideal) x0 x1 x2 x3 = Cert.Spec.G x0 x1 x2 x3 := by
  funext i
  unfold Read.val_main_v15 Cert.Spec.G
  by_cases h : (i 1).val < 2048
  · rw [dif_pos h]
    exact concatenate_pair_apply_left (t := S2048x18432) (s₁ := S2048x2048) (s₂ := S2048x16384) (1 : Fin 2) _ _ _ i rfl
      (ix2 (i 0) ⟨(i 1).val, h⟩) (fun b => by
        match b with
        | ⟨0, _⟩ => rfl
        | ⟨1, _⟩ => rfl)
  · rw [dif_neg h]
    have h2 : (i 1).val - 2048 < 16384 := by
      have := idx2_lt1 (n0 := 2048) (n1 := 18432) i
      omega
    rw [concatenate_pair_apply_right (t := S2048x18432) (s₁ := S2048x2048) (s₂ := S2048x16384) (1 : Fin 2) _ _ _ i rfl rfl
      (ix2 (i 0) ⟨(i 1).val - 2048, h2⟩) (fun b hb => by
        match b with
        | ⟨0, _⟩ => rfl
        | ⟨1, _⟩ => exact absurd rfl hb) (by show (i 1).val - 2048 + 2048 = (i 1).val; omega)]
    rw [Read.val_main_v14_apply]
    have h14 : Read.idx_main_v14 (ix2 (i 0) ⟨(i 1).val - 2048, h2⟩ : S2048x16384.Idx)
        = (ix2 ⟨(i 1).val - 2048, h2⟩ (i 0) : S16384x2048.Idx) := by
      funext c; match c with | ⟨0, _⟩ => rfl | ⟨1, _⟩ => rfl
    rw [h14]
    exact v13_at x0 x1 x2 x3 hp ⟨(i 1).val - 2048, h2⟩ (i 0)

end Cert.RefValue

end
-- ==== Proof.LibDotLast.lean ====
/-
  The product of an M×K matrix by an N×K matrix contracted on both last axes, read at an index of the result, at the
  ideal (extended-real) values: entry (r, c) is the sum over the contracted coordinate k of x[r, k] * w[c, k] — the
  product `x · wᵀ` without the transpose being formed. Stated for the host's product and for the matrix unit's
  product accumulated into a zero array, which is the same sum because 0 + s = s.
-/
import Idealize.ShloMosaic.Lib.ValueIdx
import Idealize.ShloMosaic.Lib.KernelVsHost
import Idealize.ShloMosaic.PureOps.Ideal.Laws

noncomputable section

open scoped BigOperators

namespace Cert.Lib.DotLast

open Idealize.ShloMosaic Idealize.ShloMosaic.ValueIdx

variable {m k n : Nat} {φ₁ φ₂ : FTy}

/-- The host's product at `(a, b)`: the sum over `c` of `A[a, c] * B[b, c]`. -/
theorem dotGeneral_last_apply (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The matrix unit's product into a zero accumulator at `(a, b)`: the same sum. -/
theorem matmul_zero_last_apply (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul d prec A B (constant ⟨2, ![m, n]⟩ .f32 0x00000000#32) (ix2 a b) = ∑ c : Fin k, A (ix2 a c) * B (ix2 b c) := by
  subst hd
  rw [matmul_zero_eq_dotGeneral]
  exact dotGeneral_last_apply prec A B a b

end Cert.Lib.DotLast

end
-- ==== Proof.KernelPieces.lean ====
/-
  What one grid point leaves in the 2048 × 256 output block, in each of the body's two cases, as a function of the
  blocks the point was handed.

  In the matrix case (grid points 8 to 71) the body's only store into the block is the matrix product of the whole
  low-precision copy of the input with the point's 256 × 2048 tile of the dense weights, contracted on both last axes.
  In the copy case (grid points 0 to 7) its only store is the 2048 × 256 slab of the input that starts at column
  256 · (grid coordinate): entry (r, q) of the block is the input's entry (r, 256 · coordinate + q).
-/
import proofs.«418488_j75720273428632_2_alg».proof.Proof.Gen.KernelIdeal.Frame
import Idealize.ShloMosaic.Lib.Pipeline.Value

set_option maxRecDepth 16384

noncomputable section

namespace Cert.KernelPieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The zero offsets of a whole-block access, however they are spelt. -/
theorem hz : (![0, 0] : Fin 2 → Nat) = fun _ => 0 := funext fun a => by fin_cases a <;> rfl

/-- The matrix case: the block is the product of the whole low-precision input with the weight tile. -/
theorem out_B (c : Dev nD) (i : grid0.Coords) (arg1 : Memref sig .tc .vmem S2048x2048 .f32) (harg1 : arg1.IsWhole)
    (arg2 : Memref sig .tc .vmem S2048x2048 .bf16) (harg2 : arg2.IsWhole)
    (arg3 : Memref sig .tc .vmem S256x2048 .f32) (harg3 : arg3.IsWhole)
    (arg4 : Memref sig .tc .vmem S2048x256 .f32) (harg4 : arg4.IsWhole) (hc0 : ¬cond0_0 i) (hc1 : cond0_1 i)
    (x0 : Vec F S2048x2048 .f32) (x1 : Vec F S2048x2048 .bf16) (x2 : Vec F S256x2048 .f32) :
    out0_B_3 c i arg1 harg1 arg2 harg2 arg3 harg3 arg4 harg4 hc0 hc1 x0 x1 x2 = k0_pay1 x2 x1 := by
  unfold out0_B_3
  rw [View.read_writes_eq_canon _ _ _ (cover0_B_3 c i arg1 harg1 arg2 harg2 arg3 harg3 arg4 harg4 hc0 hc1 x0 x1 x2)]
  unfold kernelRun0_B
  dsimp only
  sl_unfold_words
  rw [View.canon_unit_zero hz]
  simp only [View.readAt_eq_ld, harg2.read_unread, harg3.read_unread, View.ld_unit_zero (S := S2048x2048) hz,
    View.ld_unit_zero (S := S256x2048) hz]

/-- The copy case, at an entry: the block's entry `y` is the input's entry in the same row, `256 · coordinate`
    columns further right. -/
theorem out_A_apply (c : Dev nD) (i : grid0.Coords) (arg1 : Memref sig .tc .vmem S2048x2048 .f32) (harg1 : arg1.IsWhole)
    (arg2 : Memref sig .tc .vmem S2048x2048 .bf16) (harg2 : arg2.IsWhole)
    (arg3 : Memref sig .tc .vmem S256x2048 .f32) (harg3 : arg3.IsWhole)
    (arg4 : Memref sig .tc .vmem S2048x256 .f32) (harg4 : arg4.IsWhole) (hc0 : cond0_0 i) (hc1 : ¬cond0_1 i)
    (x0 : Vec F S2048x2048 .f32) (x1 : Vec F S2048x2048 .bf16) (x2 : Vec F S256x2048 .f32)
    (y : S2048x256.Idx) (j : S2048x2048.Idx) (hj0 : (j 0).val = (y 0).val)
    (hj1 : (j 1).val = 256 * (i 0).val + (y 1).val) :
    out0_A_3 c i arg1 harg1 arg2 harg2 arg3 harg3 arg4 harg4 hc0 hc1 x0 x1 x2 y = x0 j := by
  unfold out0_A_3
  rw [View.read_writes_eq_canon _ _ _ (cover0_A_3 c i arg1 harg1 arg2 harg2 arg3 harg3 arg4 harg4 hc0 hc1 x0 x1 x2)]
  unfold kernelRun0_A
  dsimp only
  sl_unfold_words
  rw [View.canon_unit_zero hz]
  simp only [View.readAt_eq_ld, harg1.read_unread]
  show x0 _ = x0 j
  congr 1
  funext a
  apply Fin.ext
  have hoff := k0_off1_eq i
  match a with
  | ⟨0, _⟩ =>
    show (k0_off1 i) 0 + 1 * (y 0).val = (j 0).val
    rw [hoff, hj0]; simp
  | ⟨1, _⟩ =>
    show (k0_off1 i) 1 + 1 * (y 1).val = (j 1).val
    rw [hoff, hj1]; simp

end Cert.KernelPieces

end
-- ==== Proof.KernelDense.lean ====
/-
  The dense 16384 × 2048 weights the kernel's host side builds from the edge list, read at an entry.

  The host side first moves a negative index word up by its axis extent (child words by 16384, parent words by 2048),
  lays the two columns side by side as a 65536 × 2 table of pairs, and adds each edge's weight into a zero array at
  its pair, dropping an edge whose pair leaves the array. When no index word is negative the move does nothing, and the
  entry at (c, k) is the sum of the weights of the edges whose child word reads c and whose parent word reads k.
-/
import proofs.«418488_j75720273428632_2_alg».proof.KernelIdeal
import proofs.«418488_j75720273428632_2_alg».proof.Proof.Gen.KernelIdeal
import proofs.«418488_j75720273428632_2_alg».proof.Proof.LibScatterIdx
import Idealize.ShloMosaic.Lib.ValueIdx
import Idealize.ShloMosaic.Lib.Pipeline.Value
import Idealize.ShloMosaic.PureOps.Ideal.Laws

noncomputable section

open scoped BigOperators

namespace Cert.KernelDense

open Cert.KernelIdeal Cert.KernelIdeal.Gen
open Idealize.ShloMosaic Idealize.ShloMosaic.ValueIdx

/-- An index word with a negative value moved up by the axis extent `n`, other words kept. -/
def wrap (n : BitVec 32) (z : IVec S65536 32) : IVec S65536 32 :=
  select (cmpi .slt z (broadcastInDim S65536 ![] bcast_S_S65536 (constantI S_ 32 0#32)))
    (addi z (broadcastInDim S65536 ![] bcast_S_S65536 (constantI S_ 32 n))) z

/-- The 65536 × 2 table of (child, parent) index pairs the scatter reads. -/
def pairs (ch pa : IVec S65536 32) : IVec S65536x2 32 :=
  concatenate S65536x2 1
    [⟨S65536x1, broadcastInDim S65536x1 ![0] bcast_S65536_S65536x1_0 (wrap 16384#32 ch)⟩,
     ⟨S65536x1, broadcastInDim S65536x1 ![0] bcast_S65536_S65536x1_0 (wrap 2048#32 pa)⟩]
    concatenates_S65536x1_S65536x1_S65536x2_d1

/-- The dense 16384 × 2048 weights: zeros with every edge's weight added at its (child, parent) pair. -/
def dense (v : FVec Ideal S65536 .f32) (ch pa : IVec S65536 32) : FVec Ideal S16384x2048 .f32 :=
  Host.scatterAdd scatter_S16384x2048_S65536x2_S65536_n_01_01_1
    (broadcastInDim S16384x2048 ![] bcast_S_S16384x2048 (constant (F := Ideal) S_ .f32 0x00000000#32)) (pairs ch pa) v

/-- Words that are all non-negative are not moved. -/
theorem wrap_eq (n : BitVec 32) (z : IVec S65536 32) (h : ∀ e, 0 ≤ (z e).toInt) : wrap n z = z := by
  funext e
  show Scalar.select (IntOp.cmpi .slt (z e) 0#32) _ (z e) = z e
  have hs : IntOp.cmpi .slt (z e) 0#32 = 0#1 := by
    show BitVec.ofBool ((z e).slt 0#32) = 0#1
    have : (z e).slt 0#32 = false := by
      rw [BitVec.slt]; simp only [BitVec.toInt_zero, decide_eq_false_iff_not, not_lt]; exact h e
    rw [this]; rfl
  rw [hs]; rfl

/-- The pair table's first column is the (moved) child words. -/
theorem pairs_fst (ch pa : IVec S65536 32) (e : Fin 65536) :
    pairs ch pa (ix2 e (0 : Fin 2)) = wrap 16384#32 ch (ix1 e) := by
  unfold pairs
  rw [concatenate_pair_apply_left (t := S65536x2) (s₁ := S65536x1) (s₂ := S65536x1) (1 : Fin 2) _ _
    concatenates_S65536x1_S65536x1_S65536x2_d1 (ix2 e (0 : Fin 2)) rfl
    (ix2 e (0 : Fin 1)) (fun b => by match b with | ⟨0, _⟩ => rfl | ⟨1, _⟩ => rfl)]
  exact broadcastInDim_apply _ bcast_S65536_S65536x1_0 (wrap 16384#32 ch) (ix2 e (0 : Fin 1)) (ix1 e) (fun a =>
    match a with
    | ⟨0, _⟩ => by show e.val = if (65536 : Nat) = 1 then 0 else e.val; rw [if_neg (by decide)])

/-- The pair table's second column is the (moved) parent words. -/
theorem pairs_snd (ch pa : IVec S65536 32) (e : Fin 65536) :
    pairs ch pa (ix2 e (1 : Fin 2)) = wrap 2048#32 pa (ix1 e) := by
  unfold pairs
  rw [concatenate_pair_apply_right (t := S65536x2) (s₁ := S65536x1) (s₂ := S65536x1) (1 : Fin 2) _ _
    concatenates_S65536x1_S65536x1_S65536x2_d1 (ix2 e (1 : Fin 2)) rfl rfl
    (ix2 e (0 : Fin 1)) (fun b hb => by match b with | ⟨0, _⟩ => rfl | ⟨1, _⟩ => exact absurd rfl hb) rfl]
  exact broadcastInDim_apply _ bcast_S65536_S65536x1_0 (wrap 2048#32 pa) (ix2 e (0 : Fin 1)) (ix1 e) (fun a =>
    match a with
    | ⟨0, _⟩ => by show e.val = if (65536 : Nat) = 1 then 0 else e.val; rw [if_neg (by decide)])

/-- The scatter's dimension numbers: both operand axes are named by the pair, no window axes. -/
abbrev sd : ScatterDims S16384x2048 S65536x2 S65536 := scatter_S16384x2048_S65536x2_S65536_n_01_01_1

/-- An edge's weight lands on entry `i` exactly when its pair reads `i`'s coordinates. -/
theorem lands_iff (idx : IVec S65536x2 32) (j : S65536.Idx) (i : S16384x2048.Idx) :
    sd.resultIdx? j idx = some i
      ↔ (idx (ix2 (j 0) (0 : Fin 2))).toInt = ((i 0).val : ℤ) ∧ (idx (ix2 (j 0) (1 : Fin 2))).toInt = ((i 1).val : ℤ) := by
  rw [Cert.Lib.ScatterIdx.resultIdx?_eq_some_iff]
  have h0s : sd.start j idx 0 = (idx (ix2 (j 0) (0 : Fin 2))).toInt := by
    unfold ScatterDims.start
    rw [dif_pos (show (0 : Fin 2) ∈ sd.scatterDimsToOperandDims from by decide)]
    have hsi : sd.siIdx j ⟨List.idxOf (0 : Fin 2) sd.scatterDimsToOperandDims,
        List.idxOf_lt_length_iff.2 (by decide)⟩ = (ix2 (j 0) (0 : Fin 2) : S65536x2.Idx) := by
      funext a; refine Fin.ext ?_
      match a with
      | ⟨0, _⟩ => rfl
      | ⟨1, _⟩ => rfl
    rw [hsi]
  have h1s : sd.start j idx 1 = (idx (ix2 (j 0) (1 : Fin 2))).toInt := by
    unfold ScatterDims.start
    rw [dif_pos (show (1 : Fin 2) ∈ sd.scatterDimsToOperandDims from by decide)]
    have hsi : sd.siIdx j ⟨List.idxOf (1 : Fin 2) sd.scatterDimsToOperandDims,
        List.idxOf_lt_length_iff.2 (by decide)⟩ = (ix2 (j 0) (1 : Fin 2) : S65536x2.Idx) := by
      funext a; refine Fin.ext ?_
      match a with
      | ⟨0, _⟩ => rfl
      | ⟨1, _⟩ => rfl
    rw [hsi]
  have h0w : sd.window j 0 = 0 := by
    unfold ScatterDims.window
    rw [dif_neg (show (0 : Fin 2) ∉ sd.sKept from by decide)]
  have h1w : sd.window j 1 = 0 := by
    unfold ScatterDims.window
    rw [dif_neg (show (1 : Fin 2) ∉ sd.sKept from by decide)]
  constructor
  · intro h
    have a0 := h 0
    have a1 := h 1
    rw [h0s, h0w] at a0
    rw [h1s, h1w] at a1
    have a0' : (idx (ix2 (j 0) (0 : Fin 2))).toInt + ((0 : ℕ) : ℤ) = ((i 0).val : ℤ) := a0
    have a1' : (idx (ix2 (j 0) (1 : Fin 2))).toInt + ((0 : ℕ) : ℤ) = ((i 1).val : ℤ) := a1
    exact ⟨by omega, by omega⟩
  · rintro ⟨hc, hk⟩ a
    match a with
    | ⟨0, _⟩ =>
      show sd.start j idx 0 + ((sd.window j 0 : ℕ) : ℤ) = ((i 0).val : ℤ)
      rw [h0s, h0w]; omega
    | ⟨1, _⟩ =>
      show sd.start j idx 1 + ((sd.window j 1 : ℕ) : ℤ) = ((i 1).val : ℤ)
      rw [h1s, h1w]; omega

/-- The dense weights at (c, k), when no index word is negative: the total weight of the edges whose child word reads
    `c` and whose parent word reads `k`. -/
theorem dense_apply (v : FVec Ideal S65536 .f32) (ch pa : IVec S65536 32)
    (hch : ∀ e, 0 ≤ (ch e).toInt) (hpa : ∀ e, 0 ≤ (pa e).toInt) (c : Fin 16384) (k : Fin 2048) :
    dense v ch pa (ix2 c k)
      = ∑ e ∈ Finset.univ.filter (fun e : S65536.Idx => (ch e).toInt = (c.val : ℤ) ∧ (pa e).toInt = (k.val : ℤ)), v e := by
  unfold dense Host.scatterAdd
  rw [Ideal.hostScatterAdd_def]
  unfold Ideal.hostScatterAdd
  have hz : (broadcastInDim S16384x2048 ![] bcast_S_S16384x2048 (constant (F := Ideal) S_ .f32 0x00000000#32)) (ix2 c k) = 0 := by
    show Ideal.ofBits .f32 0x00000000#32 = 0
    exact Ideal.ofBits_zero_f32
  rw [hz, zero_add]
  refine Finset.sum_congr (Finset.filter_congr fun j _ => ?_) fun _ _ => rfl
  have hj : (ix1 (j 0) : S65536.Idx) = j := (eq_ix1 j).symm
  have e1 : pairs ch pa (ix2 (j 0) (0 : Fin 2)) = ch j := by
    rw [pairs_fst ch pa (j 0), wrap_eq _ ch hch, hj]
  have e2 : pairs ch pa (ix2 (j 0) (1 : Fin 2)) = pa j := by
    rw [pairs_snd ch pa (j 0), wrap_eq _ pa hpa, hj]
  rw [lands_iff, e1, e2]

end Cert.KernelDense

end
-- ==== Proof.KernelHost.lean ====
/-
  The two arrays the host side prepares before the kernel runs, as functions of the arguments: the dense weights
  (the edge list scattered into a zero array) and the low-precision copy of the input.
-/
import proofs.«418488_j75720273428632_2_alg».proof.Proof.Gen.KernelIdeal.Frame
import proofs.«418488_j75720273428632_2_alg».proof.Proof.KernelDense
import Idealize.ShloMosaic.Lib.StableHlo.Run

noncomputable section

namespace Cert.KernelHost

open Cert.KernelIdeal Cert.KernelIdeal.Gen Cert.KernelDense
open Idealize.ShloMosaic Idealize.ShloMosaic.TcCoe Idealize.SL.Sem Idealize.ShloMosaic.StableHlo

variable (m : (ℓ : Loc nD τ sig) → Buf (Elt Ideal) ℓ)

set_option maxHeartbeats 4000000 in
/-- The weights array the kernel's third operand stages is the dense form of the edge list. -/
theorem V_dense (c : Dev nD) :
    (V m c main_call0_v14 : S16384x2048.Idx → EReal)
      = dense (m ((c : Thread nD τ).loc main_arg1)) (m ((c : Thread nD τ).loc main_arg2)) (m ((c : Thread nD τ).loc main_arg3)) := by
  dsimp only [V, hostOps0]
  after_results_simp
  rfl

set_option maxHeartbeats 4000000 in
/-- The array the kernel's second operand stages is the input converted to the low-precision format. -/
theorem V_low (c : Dev nD) :
    (V m c main_call0_v15 : S2048x2048.Idx → EReal)
      = truncf (F := Ideal) .bf16 (m ((c : Thread nD τ).loc main_arg0)) bitsLt_bf16_f32 := by
  dsimp only [V, hostOps0]
  after_results_simp
  rfl

end Cert.KernelHost

end
-- ==== Proof.LibEdgeSum.lean ====
/-
  Sums over the edges of a weighted bipartite incidence, on the extended reals with real entries.

  Edges `e` carry a weight `v e`, a column `par e` and a membership test `sel e`. Summing a row vector `x` against the
  dense matrix whose entry at column `k` is the total weight of the selected edges of that column gives the same number
  as summing `x (par e) * v e` over the selected edges: multiplication distributes over the inner sums (all entries are
  real, so nothing is lost on the extended reals), the two sums are exchanged, and for each edge exactly one column
  survives.
-/
import Idealize.ShloMosaic.PureOps.Ideal.Laws

noncomputable section

open scoped BigOperators

namespace Cert.Lib.EdgeSum

/-- The coercion of a finite sum of reals into the extended reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Over the reals: a row against the dense form of the selected edges is the sum over the selected edges. -/
theorem regroup_real {E K : Type} [Fintype E] [Fintype K] [DecidableEq K]
    (xr : K → ℝ) (vr : E → ℝ) (par : E → K) (sel : E → Prop) [DecidablePred sel] :
    ∑ k : K, xr k * ∑ e ∈ Finset.univ.filter (fun e => sel e ∧ par e = k), vr e
      = ∑ e ∈ Finset.univ.filter sel, xr (par e) * vr e := by
  simp only [Finset.mul_sum, Finset.sum_filter]
  rw [Finset.sum_comm]
  refine Finset.sum_congr rfl fun e _ => ?_
  by_cases hs : sel e
  · simp [hs]
  · simp [hs]

/-- The same on the extended reals, every entry the coercion of a real. -/
theorem regroup {E K : Type} [Fintype E] [Fintype K] [DecidableEq K]
    (xr : K → ℝ) (vr : E → ℝ) (par : E → K) (sel : E → Prop) [DecidablePred sel] :
    ∑ k : K, (xr k : EReal) * ∑ e ∈ Finset.univ.filter (fun e => sel e ∧ par e = k), (vr e : EReal)
      = ∑ e ∈ Finset.univ.filter sel, (xr (par e) : EReal) * (vr e : EReal) := by
  calc ∑ k : K, (xr k : EReal) * ∑ e ∈ Finset.univ.filter (fun e => sel e ∧ par e = k), (vr e : EReal)
      = ∑ k : K, ((xr k * ∑ e ∈ Finset.univ.filter (fun e => sel e ∧ par e = k), vr e : ℝ) : EReal) := by
        refine Finset.sum_congr rfl fun k _ => ?_
        rw [EReal.coe_mul, coe_sum]
    _ = ((∑ k : K, xr k * ∑ e ∈ Finset.univ.filter (fun e => sel e ∧ par e = k), vr e : ℝ) : EReal) :=
        (coe_sum _ _).symm
    _ = ((∑ e ∈ Finset.univ.filter sel, xr (par e) * vr e : ℝ) : EReal) := by rw [regroup_real]
    _ = ∑ e ∈ Finset.univ.filter sel, ((xr (par e) * vr e : ℝ) : EReal) := coe_sum _ _
    _ = ∑ e ∈ Finset.univ.filter sel, (xr (par e) : EReal) * (vr e : EReal) :=
        Finset.sum_congr rfl fun e _ => EReal.coe_mul _ _

end Cert.Lib.EdgeSum

end
-- ==== Proof.EdgeAlgebra.lean ====
/-
  A row of the input against a row of the dense weights is the specification's edge sum.

  Every entry is the coercion of a real, so the product distributes over the inner sums and the regrouping over abstract
  finite types applies, with the column map the specification's clamped parent word. Under the range hypothesis on the
  parent words, "the parent word reads `k`" and "the clamped column is `k`" are the same condition, which identifies the
  dense weights' filter with the regrouping's.
-/
import proofs.«418488_j75720273428632_2_alg».proof.Proof.Spec
import proofs.«418488_j75720273428632_2_alg».proof.Proof.LibEdgeSum
import Idealize.ShloMosaic.Lib.ValueIdx
import Idealize.ShloMosaic.PureOps.Ideal.Laws

noncomputable section

open scoped BigOperators

namespace Cert.EdgeAlgebra

open Idealize.ShloMosaic Idealize.ShloMosaic.ValueIdx Cert.Spec

/-- For a parent word in `[0, 2048)` the clamp does nothing: the word reads `k` exactly when the edge's column is `k`. -/
theorem toInt_eq_iff_col (pa : IVec SE 32) (hpa : ∀ e, 0 ≤ (pa e).toInt ∧ (pa e).toInt < 2048) (e : SE.Idx)
    (k : Fin 2048) : (pa e).toInt = (k.val : ℤ) ↔ col pa e = k := by
  have h1 := (hpa e).1
  have h2 := (hpa e).2
  constructor
  · intro h
    apply Fin.ext
    show min (pa e).toInt.toNat 2047 = k.val
    omega
  · intro h
    have h' : min (pa e).toInt.toNat 2047 = k.val := congrArg Fin.val h
    omega

theorem row_dot_eq_edgeSum (x : SX.Idx → EReal) (v : SE.Idx → EReal) (ch pa : IVec SE 32)
    (W : (⟨2, ![16384, 2048]⟩ : Shape).Idx → EReal)
    (hW : ∀ (c : Fin 16384) (k : Fin 2048), W (ix2 c k)
      = ∑ e ∈ Finset.univ.filter (fun e : SE.Idx => (ch e).toInt = (c.val : ℤ) ∧ (pa e).toInt = (k.val : ℤ)), v e)
    (hx : ∀ i, ∃ r : ℝ, x i = (r : EReal)) (hv : ∀ e, ∃ r : ℝ, v e = (r : EReal))
    (hpa : ∀ e, 0 ≤ (pa e).toInt ∧ (pa e).toInt < 2048) (b : Fin 2048) (c : Fin 16384) :
    ∑ k : Fin 2048, x (ix2 b k) * W (ix2 c k) = edgeSum x v ch pa b c.val := by
  choose xr hxr using hx
  choose vr hvr using hv
  unfold edgeSum
  calc ∑ k : Fin 2048, x (ix2 b k) * W (ix2 c k)
      = ∑ k : Fin 2048, (xr (ix2 b k) : EReal) *
          ∑ e ∈ Finset.univ.filter (fun e : SE.Idx => (ch e).toInt = (c.val : ℤ) ∧ col pa e = k), (vr e : EReal) := by
        refine Finset.sum_congr rfl fun k _ => ?_
        rw [hxr, hW]
        refine congrArg (fun t => (xr (ix2 b k) : EReal) * t) ?_
        refine Finset.sum_congr (Finset.filter_congr fun e _ => ?_) (fun e _ => hvr e)
        rw [toInt_eq_iff_col pa hpa e k]
    _ = ∑ e ∈ Finset.univ.filter (fun e : SE.Idx => (ch e).toInt = (c.val : ℤ)),
          (xr (ix2 b (col pa e)) : EReal) * (vr e : EReal) :=
        Cert.Lib.EdgeSum.regroup (E := SE.Idx) (K := Fin 2048) (fun k => xr (ix2 b k)) vr (col pa)
          (fun e => (ch e).toInt = (c.val : ℤ))
    _ = ∑ e ∈ Finset.univ.filter (fun e : SE.Idx => (ch e).toInt = ((c.val : ℕ) : ℤ)), x (ix2 b (col pa e)) * v e := by
        refine Finset.sum_congr rfl fun e _ => ?_
        rw [hxr, hvr]

end Cert.EdgeAlgebra

end
-- ==== Proof.KernelBlocks.lean ====
/-
  The kernel's result array, block by block, is the specification `G`.

  The output is written in 72 column blocks of width 256. Blocks 0 to 7 are column slabs of the input, so they hold
  the first 2048 columns of `G`. Block `t` for `t ≥ 8` is the product of the whole (low-precision copy of the) input
  with rows `256 (t - 8) …` of the dense weights, contracted over the 2048 parent columns: its entry (r, q) is row
  `r` of the input against row `256 (t - 8) + q` of the dense weights, which the one algebraic law turns into the
  edge sum for child `256 (t - 8) + q`, that is column `256 t + q` of `G`. The blocks tile the array, so the array
  after the run is `G` everywhere.
-/
import proofs.«418488_j75720273428632_2_alg».proof.Proof.Gen.KernelIdeal.Value
import proofs.«418488_j75720273428632_2_alg».proof.Proof.LibDotLast
import proofs.«418488_j75720273428632_2_alg».proof.Proof.KernelPieces
import proofs.«418488_j75720273428632_2_alg».proof.Proof.KernelDense
import proofs.«418488_j75720273428632_2_alg».proof.Proof.KernelHost
import proofs.«418488_j75720273428632_2_alg».proof.Proof.EdgeAlgebra
import proofs.«418488_j75720273428632_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelBlocks

open Cert.KernelIdeal Cert.KernelIdeal.Gen Cert.KernelIdeal.Value
open Idealize.ShloMosaic Idealize.ShloMosaic.TcCoe Idealize.SL.Sem
open Idealize.ShloMosaic.ValueIdx
open Idealize.ShloMosaic.Pipeline (Dat)

/-- The printed index maps over the 72 grid points: the two whole-array operands sit at block (0, 0); the weight tile
    of point `t` is tile `t - 8` (tile 0 before point 8); the output block of point `t` is column block `t`; and the
    grid coordinate of point `t` is `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val - 8 ∧ win0_2.index t (1 : Fin 2) = 0
    ∧ win0_3.index t (0 : Fin 2) = 0 ∧ win0_3.index t (1 : Fin 2) = t.val
    ∧ ((grid0.coords t) 0).val = t.val :=
  (by decide +kernel : ∀ t : Fin grid0.N, _)

/-- The matrix payload at an entry: row `r` of the low-precision input against row `q` of the weight tile. -/
theorem pay_apply (x2 : Vec Ideal S256x2048 .f32) (x1 : Vec Ideal S2048x2048 .bf16) (r : Fin 2048) (q : Fin 256) :
    k0_pay1 (F := Ideal) x2 x1 (ix2 r q) = ∑ k : Fin 2048, x1 (ix2 r k) * x2 (ix2 q k) := by
  unfold k0_pay1
  refine (Cert.Lib.DotLast.matmul_zero_last_apply _ rfl none _ _ r q).trans ?_
  refine Finset.sum_congr rfl fun k _ => ?_
  rw [shapeCast_self, shapeCast_self]
  rfl

variable (m : (ℓ : Loc nD τ sig) → Buf (Elt Ideal) ℓ) (ρ : Dev nD → PrngReg)

/-- The four argument arrays on device `c`. -/
abbrev argX (c : Dev nD) : Cert.Spec.SX.Idx → EReal := m ((c : Thread nD τ).loc main_arg0)
abbrev argV (c : Dev nD) : Cert.Spec.SE.Idx → EReal := m ((c : Thread nD τ).loc main_arg1)
abbrev argCh (c : Dev nD) : IVec Cert.Spec.SE 32 := m ((c : Thread nD τ).loc main_arg2)
abbrev argPa (c : Dev nD) : IVec Cert.Spec.SE 32 := m ((c : Thread nD τ).loc main_arg3)

/-- The three input blocks point `t` is handed. -/
abbrev xblk (c : Dev nD) (t : Fin cfg0.N) : Vec Ideal S2048x2048 .f32 := iblk m c 0 t
abbrev lblk (c : Dev nD) (t : Fin cfg0.N) : Vec Ideal S2048x2048 .bf16 := iblk m c 1 t
abbrev wblk (c : Dev nD) (t : Fin cfg0.N) : Vec Ideal S256x2048 .f32 := iblk m c 2 t

/-- The first block is the whole input. -/
theorem xblk_apply (c : Dev nD) (t : Fin cfg0.N) (j : S2048x2048.Idx) : xblk m c t j = argX m c j := by
  obtain ⟨e0, e1, -⟩ := idx_facts t
  show V m c main_arg0 (((cfg0.win 0).blk t).view.emb j) = _
  rw [V_main_arg0]
  have he : ((cfg0.win 0).blk t).view.emb j = j := by
    funext a; apply Fin.ext
    match a with
    | ⟨0, _⟩ => show win0_0.index t (0 : Fin 2) * 2048 + 1 * (j 0).val = (j 0).val; omega
    | ⟨1, _⟩ => show win0_0.index t (1 : Fin 2) * 2048 + 1 * (j 1).val = (j 1).val; omega
  rw [he]

/-- The second block is the whole input too: the change of format is the identity on the extended reals. -/
theorem lblk_apply (c : Dev nD) (t : Fin cfg0.N) (j : S2048x2048.Idx) : lblk m c t j = argX m c j := by
  obtain ⟨-, -, e2, e3, -⟩ := idx_facts t
  have he : ((cfg0.win 1).blk t).view.emb j = j := by
    funext a; apply Fin.ext
    match a with
    | ⟨0, _⟩ => show win0_1.index t (0 : Fin 2) * 2048 + 1 * (j 0).val = (j 0).val; omega
    | ⟨1, _⟩ => show win0_1.index t (1 : Fin 2) * 2048 + 1 * (j 1).val = (j 1).val; omega
  show (V m c main_call0_v15 : S2048x2048.Idx → EReal) (((cfg0.win 1).blk t).view.emb j) = _
  rw [he, Cert.KernelHost.V_low m c]
  rfl

/-- From point 8 on, the third block is rows `256 (t - 8) …` of the dense weights. -/
theorem wblk_apply (c : Dev nD) (t : Fin cfg0.N) (q : Fin 256) (k : Fin 2048) (row : Fin 16384)
    (hrow : row.val = 256 * (t.val - 8) + q.val) :
    wblk m c t (ix2 q k) = Cert.KernelDense.dense (argV m c) (argCh m c) (argPa m c) (ix2 row k) := by
  obtain ⟨-, -, -, -, e4, e5, -⟩ := idx_facts t
  have he : ((cfg0.win 2).blk t).view.emb (ix2 q k : S256x2048.Idx) = (ix2 row k : S16384x2048.Idx) := by
    funext a; apply Fin.ext
    match a with
    | ⟨0, _⟩ => show win0_2.index t (0 : Fin 2) * 256 + 1 * q.val = row.val; omega
    | ⟨1, _⟩ => show win0_2.index t (1 : Fin 2) * 2048 + 1 * k.val = k.val; omega
  show (V m c main_call0_v14 : S16384x2048.Idx → EReal) (((cfg0.win 2).blk t).view.emb (ix2 q k : S256x2048.Idx)) = _
  rw [he, Cert.KernelHost.V_dense m c]

/-- The specification at a column of the first 2048. -/
theorem G_left (x : Cert.Spec.SX.Idx → EReal) (v : Cert.Spec.SE.Idx → EReal) (ch pa : IVec Cert.Spec.SE 32)
    (r : Fin 2048) (col : Fin 18432) (h : col.val < 2048) :
    Cert.Spec.G x v ch pa (ix2 r col) = x (ix2 r ⟨col.val, h⟩) := by
  show (if h' : col.val < 2048 then x (ix2 r ⟨col.val, h'⟩) else _) = _
  rw [dif_pos h]

/-- The specification at a later column. -/
theorem G_right (x : Cert.Spec.SX.Idx → EReal) (v : Cert.Spec.SE.Idx → EReal) (ch pa : IVec Cert.Spec.SE 32)
    (r : Fin 2048) (col : Fin 18432) (h : 2048 ≤ col.val) :
    Cert.Spec.G x v ch pa (ix2 r col) = Cert.Spec.edgeSum x v ch pa r (col.val - 2048) := by
  show (if h' : col.val < 2048 then _ else Cert.Spec.edgeSum x v ch pa r (col.val - 2048)) = _
  rw [dif_neg (by omega)]

/-- Where an entry of output block `t` sits in the array: same row, `256 t` columns to the right. -/
theorem emb_out (t : Fin cfg0.N) (y0 : ((cfg0.win 3).xblock (cfg0.grid.coords t)).Idx) (r : Fin 2048) (q : Fin 256)
    (hy : (cfg0.win 3).xinj (grid0.coords t) y0 = (ix2 r q : S2048x256.Idx)) (col : Fin 18432)
    (hcol : col.val = 256 * t.val + q.val) :
    ((cfg0.win 3).blk t).view.emb y0 = (ix2 r col : S2048x18432.Idx) := by
  obtain ⟨-, -, -, -, -, -, e6, e7, -⟩ := idx_facts t
  have h0 : (y0 0).val = r.val := congrArg (fun z : S2048x256.Idx => (z 0).val) hy
  have h1 : (y0 1).val = q.val := congrArg (fun z : S2048x256.Idx => (z 1).val) hy
  funext a; apply Fin.ext
  match a with
  | ⟨0, _⟩ => show win0_3.index t (0 : Fin 2) * 2048 + 1 * (y0 0).val = r.val; omega
  | ⟨1, _⟩ => show win0_3.index t (1 : Fin 2) * 256 + 1 * (y0 1).val = col.val; omega

/-- An index of the array is in point `t`'s block iff its column is in the block's column range. -/
theorem mem_blk (t : Fin cfg0.N) (i : S2048x18432.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v0).slice (win0_3.rect t)).set ↔ _
  rw [View.set_slice_whole, Rect.mem_set_unit]
  exact Iff.rfl

/-- Every index of the array is in some point's block: the one whose number is the column divided by 256. -/
theorem cover (i : S2048x18432.Idx) :
    ∃ t : Fin cfg0.N, (cfg0.win 3).flush t = true ∧ i ∈ ((cfg0.win 3).blk t).view.set := by
  have hi0 : (i 0).val < 2048 := (i 0).isLt
  have hi1 : (i 1).val < 18432 := (i 1).isLt
  have hlt : (i 1).val / 256 < cfg0.N := by rw [show cfg0.N = 72 from N_0]; omega
  refine ⟨⟨(i 1).val / 256, hlt⟩, flush0_3 _, ?_⟩
  obtain ⟨-, -, -, -, -, -, e6, e7, -⟩ := idx_facts ⟨(i 1).val / 256, hlt⟩
  rw [mem_blk]
  intro a
  match a with
  | ⟨0, _⟩ =>
    show win0_3.index ⟨(i 1).val / 256, hlt⟩ (0 : Fin 2) * 2048 ≤ (i 0).val
      ∧ (i 0).val < win0_3.index ⟨(i 1).val / 256, hlt⟩ (0 : Fin 2) * 2048 + 2048
    omega
  | ⟨1, _⟩ =>
    show win0_3.index ⟨(i 1).val / 256, hlt⟩ (1 : Fin 2) * 256 ≤ (i 1).val
      ∧ (i 1).val < win0_3.index ⟨(i 1).val / 256, hlt⟩ (1 : Fin 2) * 256 + 256
    have : win0_3.index ⟨(i 1).val / 256, hlt⟩ (1 : Fin 2) = (i 1).val / 256 := e7
    omega

section
variable (c : Dev nD)
  (hx : ∀ i, ∃ r : ℝ, argX m c i = (r : EReal)) (hv : ∀ e, ∃ r : ℝ, argV m c e = (r : EReal))
  (hch : ∀ e, 0 ≤ (argCh m c e).toInt ∧ (argCh m c e).toInt < 16384)
  (hpa : ∀ e, 0 ≤ (argPa m c e).toInt ∧ (argPa m c e).toInt < 2048)
include hx hv hch hpa

/-- What point `t` writes back is block `t` of the specification. -/
theorem flushed_eq (t : Fin cfg0.N) :
    (dats m 0 c).flushed 3 t
      = ((cfg0.win 3).blk t).view.read (Elt Ideal) (Cert.Spec.G (argX m c) (argV m c) (argCh m c) (argPa m c)) := by
  have hN : t.val < 72 := lt_of_lt_of_eq t.isLt N_0
  have e8 : ((grid0.coords t) 0).val = t.val := (idx_facts t).2.2.2.2.2.2.2.2
  funext y0
  obtain ⟨r, q, hy⟩ : ∃ (r : Fin 2048) (q : Fin 256),
      (cfg0.win 3).xinj (grid0.coords t) y0 = (ix2 r q : S2048x256.Idx) := ⟨_, _, eq_ix2 _⟩
  have hcut : ∀ X : S2048x256.Idx → EReal, (cfg0.win 3).cut (grid0.coords t) X y0 = X (ix2 r q) :=
    fun X => congrArg X hy
  have hq : q.val < 256 := q.isLt
  have hcolb : 256 * t.val + q.val < 18432 := by omega
  have hemb : ((cfg0.win 3).blk t).view.emb y0 = (ix2 r ⟨256 * t.val + q.val, hcolb⟩ : S2048x18432.Idx) :=
    emb_out t y0 r q hy ⟨256 * t.val + q.val, hcolb⟩ rfl
  show _ = Cert.Spec.G (argX m c) (argV m c) (argCh m c) (argPa m c) (((cfg0.win 3).blk t).view.emb y0)
  rw [hemb]
  by_cases h0 : t.val < 8
  · have h1 : ¬8 ≤ t.val := by omega
    rw [flushed3_A m c t h0 h1, hcut]
    have hc : 256 * t.val + q.val < 2048 := by omega
    refine (Cert.KernelPieces.out_A_apply c (grid0.coords t) (ms0_0 t) (hs0_0 t) (ms0_1 t) (hs0_1 t) (ms0_2 t) (hs0_2 t)
      (ms0_3 t) (hs0_3 t) ((hcond0_0 t).mpr h0) (fun h => h1 ((hcond0_1 t).mp h)) (xblk m c t) (lblk m c t) (wblk m c t)
      (ix2 r q) (ix2 r ⟨256 * t.val + q.val, hc⟩) rfl
      (by show 256 * t.val + q.val = 256 * ((grid0.coords t) 0).val + q.val; rw [e8])).trans ?_
    rw [xblk_apply, G_left (argX m c) (argV m c) (argCh m c) (argPa m c) r ⟨256 * t.val + q.val, hcolb⟩ hc]
  · have h1 : 8 ≤ t.val := by omega
    rw [flushed3_B m c t h0 h1, hcut]
    have hrowb : 256 * (t.val - 8) + q.val < 16384 := by omega
    refine (congrFun (Cert.KernelPieces.out_B c (grid0.coords t) (ms0_0 t) (hs0_0 t) (ms0_1 t) (hs0_1 t) (ms0_2 t) (hs0_2 t)
      (ms0_3 t) (hs0_3 t) (fun h => h0 ((hcond0_0 t).mp h)) ((hcond0_1 t).mpr h1) (xblk m c t) (lblk m c t) (wblk m c t))
      (ix2 r q)).trans ?_
    rw [pay_apply, G_right (argX m c) (argV m c) (argCh m c) (argPa m c) r ⟨256 * t.val + q.val, hcolb⟩
      (by show 2048 ≤ 256 * t.val + q.val; omega)]
    have hsub : 256 * t.val + q.val - 2048 = (⟨256 * (t.val - 8) + q.val, hrowb⟩ : Fin 16384).val := by
      show 256 * t.val + q.val - 2048 = 256 * (t.val - 8) + q.val; omega
    show _ = Cert.Spec.edgeSum (argX m c) (argV m c) (argCh m c) (argPa m c) r (256 * t.val + q.val - 2048)
    rw [hsub, ← Cert.EdgeAlgebra.row_dot_eq_edgeSum (argX m c) (argV m c) (argCh m c) (argPa m c)
      (Cert.KernelDense.dense (argV m c) (argCh m c) (argPa m c))
      (fun c' k => Cert.KernelDense.dense_apply (argV m c) (argCh m c) (argPa m c) (fun e => (hch e).1) (fun e => (hpa e).1) c' k)
      hx hv hpa r ⟨256 * (t.val - 8) + q.val, hrowb⟩]
    refine Finset.sum_congr rfl fun k _ => ?_
    rw [lblk_apply, wblk_apply m c t q k ⟨256 * (t.val - 8) + q.val, hrowb⟩ rfl]

/-- The output array after the run is the specification of the arguments. -/
theorem final : (dats m 0 c).arrAt 3 cfg0.N = Cert.Spec.G (argX m c) (argV m c) (argCh m c) (argPa m c) :=
  (dats m 0 c).arrAt_eq_of_cover 3 (Cert.Spec.G (argX m c) (argV m c) (argCh m c) (argPa m c))
    (fun t _ => flushed_eq m c hx hv hch hpa t) (cover)

end

end Cert.KernelBlocks

end
-- ==== Proof.lean ====
/-
  The kernel and its reference compute the same 2048 × 18432 array on the extended reals, for finite inputs whose
  child words lie in [0, 16384) and parent words in [0, 2048).

  The result's first 2048 columns are the input x. Column 2048 + c of row b is the sum over the edges e whose child
  word is c of x[b, parent of e] · weight of e. The reference computes that sum directly (gather the parent columns,
  multiply by the weights, add up by child). The kernel first scatters the weights into a dense 16384 × 2048 array W
  with W[c, p] the total weight of the edges (c, p), then multiplies: Σ_p x[b, p] · W[c, p]. The two agree because the
  product distributes over the inner sums when every entry is a real number, the sums can be exchanged, and each edge
  has exactly one parent column. Finiteness of the float inputs is what makes the entries real; the index ranges are
  what make both programs read the same child and parent for every edge (out of range the two treat an index
  differently: one wraps a negative child where the other drops it, one clamps a large parent where the other drops it).

  The three frames are the generated ones (the reference's is its generated run with the result dropped); no operation
  was rewritten in idealizing the kernel, so that claim is trivial.
-/
import proofs.«418488_j75720273428632_2_alg».proof.Defs
import proofs.«418488_j75720273428632_2_alg».proof.Proof.Gen.Kernel
import proofs.«418488_j75720273428632_2_alg».proof.Proof.Gen.Kernel.Skeleton
import proofs.«418488_j75720273428632_2_alg».proof.Proof.Gen.Kernel.Launch
import proofs.«418488_j75720273428632_2_alg».proof.Proof.Gen.Kernel.Points
import proofs.«418488_j75720273428632_2_alg».proof.Proof.Gen.Kernel.Frame
import proofs.«418488_j75720273428632_2_alg».proof.Proof.Gen.KernelIdeal
import proofs.«418488_j75720273428632_2_alg».proof.Proof.Gen.KernelIdeal.Skeleton
import proofs.«418488_j75720273428632_2_alg».proof.Proof.Gen.KernelIdeal.Launch
import proofs.«418488_j75720273428632_2_alg».proof.Proof.Gen.KernelIdeal.Points
import proofs.«418488_j75720273428632_2_alg».proof.Proof.Gen.KernelIdeal.Frame
import proofs.«418488_j75720273428632_2_alg».proof.Proof.Gen.KernelIdeal.Value
import proofs.«418488_j75720273428632_2_alg».proof.Proof.Gen.ReferenceIdeal
import proofs.«418488_j75720273428632_2_alg».proof.Proof.Gen.ReferenceIdeal.Run
import proofs.«418488_j75720273428632_2_alg».proof.Proof.Gen.ReferenceIdeal.Read
import proofs.«418488_j75720273428632_2_alg».proof.Proof.Gen.Pre_finite_inputs
import proofs.«418488_j75720273428632_2_alg».proof.Proof.PreRead
import proofs.«418488_j75720273428632_2_alg».proof.Proof.RefValue
import proofs.«418488_j75720273428632_2_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification of the (shared) arguments in their result array. -/
theorem algebraic : Cert.algebraic_KernelIdeal_ReferenceIdeal := by
  intro m ρ m' ρ' hpre hagree
  have hP := fun c => Cert.PreRead.of_pre _ _ _ _ (hpre c)
  refine ⟨fun c => Cert.Spec.G (Cert.KernelBlocks.argX m c) (Cert.KernelBlocks.argV m c) (Cert.KernelBlocks.argCh m c)
    (Cert.KernelBlocks.argPa m c), ?_, ?_⟩
  · exact (θ_run Cert.KernelIdeal.defs _ _).mono (fun r h c =>
      ⟨(h c).1.trans (Cert.KernelBlocks.final m c (hP c).1 (hP c).2.1 (hP c).2.2.1 (hP c).2.2.2), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v15_eq _ _ _ _).trans
      (Cert.RefValue.ref_eq_G _ _ _ _ (fun e => ((hP c).2.2.2 e).1))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
